-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x4096 : Shape := ⟨3, ![32, 1, 4096]⟩
abbrev S11008x4096 : Shape := ⟨2, ![11008, 4096]⟩
abbrev S4403 : Shape := ⟨1, ![4403]⟩
abbrev S_ : Shape := ⟨0, ![]⟩

class Facts : Prop where
  bcast_S_S32x1x4096 : S_.BroadcastsInDim S32x1x4096 (![] : Fin 0 → Fin S32x1x4096.rank)
  reducesTo_S32x1x4096_S_d0_1_2 : S32x1x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4403 : S_.BroadcastsInDim S4403 (![] : Fin 0 → Fin S4403.rank)
  reducesTo_S4403_S_d0 : S4403.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x1x4096 .f32) (main_arg1 : FVec F S11008x4096 .f32) (main_arg2 : IVec S4403 32) : IVec S_ 1 :=
  let main_v0 : FVec F S32x1x4096 .f32 := Host.absf main_arg0
  let main_cst : FVec F S_ .f32 := constant S_ .f32 0x7F800000#32
  let main_v1 : FVec F S32x1x4096 .f32 := broadcastInDim S32x1x4096 ![] bcast_S_S32x1x4096 main_cst
  let main_v2 : IVec S32x1x4096 1 := cmpf .olt main_v0 main_v1
  let main_c : IVec S_ 1 := constantI S_ 1 1#1
  let main_v3 : IVec S_ 1 := (fun x v => Host.reduce IntOp.andi x v reducesTo_S32x1x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_c_2 : IVec S_ 32 := constantI S_ 32 4294956288#32
  let main_v9 : IVec S4403 32 := broadcastInDim S4403 ![] bcast_S_S4403 main_c_2
  let main_v10 : IVec S4403 1 := cmpi .sge main_arg2 main_v9
  let main_c_3 : IVec S_ 1 := constantI S_ 1 1#1
  let main_v11 : IVec S_ 1 := (fun x v => Host.reduce IntOp.andi x v reducesTo_S4403_S_d0 h_S_) main_v10 main_c_3
  let main_v12 : IVec S_ 1 := andi main_v8 main_v11
  let main_c_4 : IVec S_ 32 := constantI S_ 32 11008#32
  let main_v13 : IVec S4403 32 := broadcastInDim S4403 ![] bcast_S_S4403 main_c_4
  let main_v14 : IVec S4403 1 := cmpi .slt main_arg2 main_v13
  let main_c_5 : IVec S_ 1 := constantI S_ 1 1#1
  let main_v15 : IVec S_ 1 := (fun x v => Host.reduce IntOp.andi x v reducesTo_S4403_S_d0 h_S_) main_v14 main_c_5
  fn_part1 (F := F) main_v12 main_v15
-- ==== Kernel.lean ====
abbrev S32x1x4096 : Shape := ⟨3, ![32, 1, 4096]⟩
abbrev S11008x4096 : Shape := ⟨2, ![11008, 4096]⟩
abbrev S4403 : Shape := ⟨1, ![4403]⟩
abbrev S32x4096 : Shape := ⟨2, ![32, 4096]⟩
abbrev S32x11008 : Shape := ⟨2, ![32, 11008]⟩
abbrev S512x4096 : Shape := ⟨2, ![512, 4096]⟩
abbrev S32x512 : Shape := ⟨2, ![32, 512]⟩
abbrev S_ : Shape := ⟨0, ![]⟩
abbrev S4403x1 : Shape := ⟨2, ![4403, 1]⟩
abbrev S1 : Shape := ⟨1, ![1]⟩
abbrev S1x1 : Shape := ⟨2, ![1, 1]⟩
abbrev S32x4403 : Shape := ⟨2, ![32, 4403]⟩
abbrev S32x1x4403 : Shape := ⟨3, ![32, 1, 4403]⟩

abbrev nBuf : Space → Nat
  | .hbm => 30
  | .vmem => 5
  | .smem => 0
  | _ => 0

abbrev bufTy : (tb : Table) → Fin (tcTables nBuf tb) → BufTy
  | .hbm, ⟨0, _⟩ => ⟨S32x1x4096, .f32⟩
  | .hbm, ⟨1, _⟩ => ⟨S11008x4096, .f32⟩
  | .hbm, ⟨2, _⟩ => ⟨S4403, .i32⟩
  | .hbm, ⟨3, _⟩ => ⟨S32x4096, .f32⟩
  | .hbm, ⟨4, _⟩ => ⟨S32x4096, .bf16⟩
  | .hbm, ⟨5, _⟩ => ⟨S32x11008, .f32⟩
  | .hbm, ⟨6, _⟩ => ⟨S_, .i32⟩
  | .hbm, ⟨7, _⟩ => ⟨S4403, .i32⟩
  | .hbm, ⟨8, _⟩ => ⟨S4403, .i1⟩
  | .hbm, ⟨9, _⟩ => ⟨S_, .i32⟩
  | .hbm, ⟨10, _⟩ => ⟨S4403, .i32⟩
  | .hbm, ⟨11, _⟩ => ⟨S4403, .i32⟩
  | .hbm, ⟨12, _⟩ => ⟨S4403, .i32⟩
  | .hbm, ⟨13, _⟩ => ⟨S4403x1, .i32⟩
  | .hbm, ⟨14, _⟩ => ⟨S1, .i32⟩
  | .hbm, ⟨15, _⟩ => ⟨S_, .i32⟩
  | .hbm, ⟨16, _⟩ => ⟨S4403x1, .i32⟩
  | .hbm, ⟨17, _⟩ => ⟨S4403x1, .i1⟩
  | .hbm, ⟨18, _⟩ => ⟨S1x1, .i32⟩
  | .hbm, ⟨19, _⟩ => ⟨S4403x1, .i32⟩
  | .hbm, ⟨20, _⟩ => ⟨S4403x1, .i1⟩
  | .hbm, ⟨21, _⟩ => ⟨S4403x1, .i1⟩
  | .hbm, ⟨22, _⟩ => ⟨S_, .i1⟩
  | .hbm, ⟨23, _⟩ => ⟨S4403, .i1⟩
  | .hbm, ⟨24, _⟩ => ⟨S32x4403, .f32⟩
  | .hbm, ⟨25, _⟩ => ⟨S32x4403, .i1⟩
  | .hbm, ⟨26, _⟩ => ⟨S_, .f32⟩
  | .hbm, ⟨27, _⟩ => ⟨S32x4403, .f32⟩
  | .hbm, ⟨28, _⟩ => ⟨S32x4403, .f32⟩
  | .hbm, ⟨29, _⟩ => ⟨S32x1x4403, .f32⟩
  | .local _ .vmem, ⟨0, _⟩ => ⟨S32x4096, .bf16⟩
  | .local _ .vmem, ⟨1, _⟩ => ⟨S512x4096, .f32⟩
  | .local _ .vmem, ⟨2, _⟩ => ⟨S512x4096, .f32⟩
  | .local _ .vmem, ⟨3, _⟩ => ⟨S32x512, .f32⟩
  | .local _ .vmem, ⟨4, _⟩ => ⟨S32x512, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x4096_S32x4096 : S32x1x4096.ShapeCasts S32x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S512x4096_S512x4096_0_0 : ∀ a, (![0, 0] : Fin 2 → Nat) a + S512x4096.size a ≤ S512x4096.size a
  h_S512x4096 : 0 < S512x4096.numel
  inb_S32x512_S32x512_0_0 : ∀ a, (![0, 0] : Fin 2 → Nat) a + S32x512.size a ≤ S32x512.size a
  h_S32x512 : 0 < S32x512.numel
  bcast_S_S4403 : S_.BroadcastsInDim S4403 (![] : Fin 0 → Fin S4403.rank)
  bcast_S4403_S4403x1_0 : S4403.BroadcastsInDim S4403x1 (![0] : Fin 1 → Fin S4403x1.rank)
  bcast_S_S4403x1 : S_.BroadcastsInDim S4403x1 (![] : Fin 0 → Fin S4403x1.rank)
  bcast_S1_S1x1_1 : S1.BroadcastsInDim S1x1 (![1] : Fin 1 → Fin S1x1.rank)
  bcast_S1x1_S4403x1_0_1 : S1x1.BroadcastsInDim S4403x1 (![0, 1] : Fin 2 → Fin S4403x1.rank)
  reducesTo_S4403x1_S4403_d1 : S4403x1.ReducesTo [1] S4403
  h_S_ : 0 < S_.numel
  bcast_S4403_S32x4403_1 : S4403.BroadcastsInDim S32x4403 (![1] : Fin 1 → Fin S32x4403.rank)
  bcast_S_S32x4403 : S_.BroadcastsInDim S32x4403 (![] : Fin 0 → Fin S32x4403.rank)
  shapeCasts_S32x4403_S32x1x4403 : S32x4403.ShapeCasts S32x1x4403
  dot_S32x4096_S512x4096_S32x512_1_1_0_0_n_n_wf : DotDims.WF S32x4096 S512x4096 S32x512 [1] [1] [0] [0] [] []
  gather_S32x11008_S4403x1_S32x4403_0_1_n_n_1_1_321_wf : GatherDims.WF S32x11008 S4403x1 S32x4403 [0] [1] [] [1] [] 1 ![32, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .bf16 = 32 ∨ (Rect.block (s := S32x4096) S32x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .f32 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .f32)
  hwxs0_1 : ∀ i : grid0.Coords, EltTy.bits .f32 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x512.size a < S32x11008.size a
  hwx0_2 : ∀ i : grid0.Coords, EltTy.bits .f32 = 32 ∨ (Rect.unit (s := S32x11008) (fun a => cc0_transform_2 i a * S32x512.size a) (fun a => (Pipeline.Clip.of (cc0_transform_2 i a) (S32x512.size a) (S32x11008.size a)).extent (S32x512.size a)) fun a => Pipeline.Clip.inb (Pipeline.Clip.ok_of (hstart0_2 i a))).WholeWords (EltTy.packing .f32)
  hwxs0_2 : ∀ i : grid0.Coords, EltTy.bits .f32 = 32 ∨ (Rect.unit (s := S32x512) (fun _ => 0) (fun a => (Pipeline.Clip.of (cc0_transform_2 i a) (S32x512.size a) (S32x11008.size a)).extent (S32x512.size a)) fun a => (Nat.zero_add _).trans_le (Pipeline.Clip.extent_le (Pipeline.Clip.ok_of (hstart0_2 i a)))).WholeWords (EltTy.packing .f32)

variable [Facts₀]

def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf
def gather_S32x11008_S4403x1_S32x4403_0_1_n_n_1_1_321 : GatherDims S32x11008 S4403x1 S32x4403 where
  offsetDims := [0]
  collapsedSliceDims := [1]
  operandBatchingDims := []
  startIndicesBatchingDims := []
  startIndexMap := [1]
  indexVectorDim := 1
  sliceSizes := ![32, 1]
  wf := gather_S32x11008_S4403x1_S32x4403_0_1_n_n_1_1_321_wf

abbrev win0_0 : Pipeline.Window sig grid0 :=
  Pipeline.Window.ofSpec (Memref.whole main_v1) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S32x512.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x4096 : Shape := ⟨3, ![32, 1, 4096]⟩
abbrev S11008x4096 : Shape := ⟨2, ![11008, 4096]⟩
abbrev S4403 : Shape := ⟨1, ![4403]⟩
abbrev S_ : Shape := ⟨0, ![]⟩
abbrev S4403x1 : Shape := ⟨2, ![4403, 1]⟩
abbrev S4403x4096 : Shape := ⟨2, ![4403, 4096]⟩
abbrev S32x1x4403 : Shape := ⟨3, ![32, 1, 4403]⟩

abbrev nBuf : Space → Nat
  | .hbm => 13
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S11008x4096, .f32⟩
  | .hbm, ⟨2, _⟩ => ⟨S4403, .i32⟩
  | .hbm, ⟨3, _⟩ => ⟨S_, .i32⟩
  | .hbm, ⟨4, _⟩ => ⟨S4403, .i32⟩
  | .hbm, ⟨5, _⟩ => ⟨S4403, .i1⟩
  | .hbm, ⟨6, _⟩ => ⟨S_, .i32⟩
  | .hbm, ⟨7, _⟩ => ⟨S4403, .i32⟩
  | .hbm, ⟨8, _⟩ => ⟨S4403, .i32⟩
  | .hbm, ⟨9, _⟩ => ⟨S4403, .i32⟩
  | .hbm, ⟨10, _⟩ => ⟨S4403x1, .i32⟩
  | .hbm, ⟨11, _⟩ => ⟨S4403x4096, .f32⟩
  | .hbm, ⟨12, _⟩ => ⟨S32x1x4403, .f32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4403 : S_.BroadcastsInDim S4403 (![] : Fin 0 → Fin S4403.rank)
  bcast_S4403_S4403x1_0 : S4403.BroadcastsInDim S4403x1 (![0] : Fin 1 → Fin S4403x1.rank)
  gather_S11008x4096_S4403x1_S4403x4096_1_0_n_n_0_1_14096_wf : GatherDims.WF S11008x4096 S4403x1 S4403x4096 [1] [0] [] [0] [] 1 ![1, 4096]
  dot_S32x1x4096_S4403x4096_S32x1x4403_2_1_01_0_n_n_wf : DotDims.WF S32x1x4096 S4403x4096 S32x1x4403 [2] [1] [0, 1] [0] [] []

variable [Facts₀]

def gather_S11008x4096_S4403x1_S4403x4096_1_0_n_n_0_1_14096 : GatherDims S11008x4096 S4403x1 S4403x4096 where
  offsetDims := [1]
  collapsedSliceDims := [0]
  operandBatchingDims := []
  startIndicesBatchingDims := []
  startIndexMap := [0]
  indexVectorDim := 1
  sliceSizes := ![1, 4096]
  wf := gather_S11008x4096_S4403x1_S4403x4096_1_0_n_n_0_1_14096_wf
def dot_S32x1x4096_S4403x4096_S32x1x4403_2_1_01_0_n_n : DotDims S32x1x4096 S4403x4096 S32x1x4403 where
  lhsContracting := [2]
  rhsContracting := [1]
  lhsNonContracting := [0, 1]
  rhsNonContracting := [0]
  lhsBatch := []
  rhsBatch := []
  wf := dot_S32x1x4096_S4403x4096_S32x1x4403_2_1_01_0_n_n_wf

class Facts : Prop extends Facts₀ where

variable [Facts]
-- ==== Proof.KBody.lean ====
/-
  The kernel body of the dense projection, as a triple over the contents of its three staging buffers.

  At one grid point the body loads the whole block of the activations (32 rows of 4096 entries), loads the whole
  block of 512 weight rows, rounds the weights to the narrow format, multiplies the two on the matrix unit into a
  zero accumulator, and stores the 32 by 512 product over the whole result block.  Whatever the three buffers hold,
  the first two are left as they were and the third ends holding that product of the first two.
-/
import proofs.«411945_j89378269430144_3_alg».proof.Proof.Gen.Kernel.Frame
import proofs.«411945_j89378269430144_3_alg».proof.Proof.Gen.Kernel.Skeleton
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body on staging buffer `s0` of the activations' window (it has one), `s1` of the weights' and `s2` of the
    result's (two each): the three whole loads, the product, the whole store.  The result's buffer ends holding the
    product of what the other two hold; those are unchanged. -/
theorem sound_kernel (c : Dev nD) (E : Set ℕ) (i : grid0.Coords) (s0 : Fin 1) (s1 : Fin 2) (s2 : Fin 2)
    (X0 : S32x4096.Idx → Elt F .bf16) (X1 : S512x4096.Idx → Elt F .f32) (X2 : S32x512.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__dense_proj_kernel i (stage0_0 s0) (hstage0_0 s0) (stage0_1 s1) (hstage0_1 s1) (stage0_2 s2) (hstage0_2 s2)) K := by
  -- every access is at offset zero with the buffer's own extents: a load reads the contents, the unmasked store
  -- writes the payload, at whichever buffer of its window each memref is
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_0 : Memref sig .tc _ _ _).view.readAt (Elt F) (Rect.unit (s := S512x4096) ![0, 0] S512x4096.size
        inb_S512x4096_S512x4096_0_0).toLoadRect = id := funext (Memref.readAt_unit_zero (Elt F) cc0_stg1_0 hz _)
    have hw2 : ∀ f w, (((Memref.whole cc0_stg2_0).access (Rect.unit (s := S32x512) ![0, 0] S32x512.size inb_S32x512_S32x512_0_0)) :
        View sig .tc _ _ _).write (Elt F) f w Finset.univ = w := Memref.write_access_unit_zero_univ (Elt F) cc0_stg2_0 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_0 : Memref sig .tc _ _ _).view.readAt (Elt F) (Rect.unit (s := S512x4096) ![0, 0] S512x4096.size
        inb_S512x4096_S512x4096_0_0).toLoadRect = id := funext (Memref.readAt_unit_zero (Elt F) cc0_stg1_0 hz _)
    have hw2 : ∀ f w, (((Memref.whole cc0_stg2_1).access (Rect.unit (s := S32x512) ![0, 0] S32x512.size inb_S32x512_S32x512_0_0)) :
        View sig .tc _ _ _).write (Elt F) f w Finset.univ = w := Memref.write_access_unit_zero_univ (Elt F) cc0_stg2_1 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_1 : Memref sig .tc _ _ _).view.readAt (Elt F) (Rect.unit (s := S512x4096) ![0, 0] S512x4096.size
        inb_S512x4096_S512x4096_0_0).toLoadRect = id := funext (Memref.readAt_unit_zero (Elt F) cc0_stg1_1 hz _)
    have hw2 : ∀ f w, (((Memref.whole cc0_stg2_0).access (Rect.unit (s := S32x512) ![0, 0] S32x512.size inb_S32x512_S32x512_0_0)) :
        View sig .tc _ _ _).write (Elt F) f w Finset.univ = w := Memref.write_access_unit_zero_univ (Elt F) cc0_stg2_0 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_1 : Memref sig .tc _ _ _).view.readAt (Elt F) (Rect.unit (s := S512x4096) ![0, 0] S512x4096.size
        inb_S512x4096_S512x4096_0_0).toLoadRect = id := funext (Memref.readAt_unit_zero (Elt F) cc0_stg1_1 hz _)
    have hw2 : ∀ f w, (((Memref.whole cc0_stg2_1).access (Rect.unit (s := S32x512) ![0, 0] S32x512.size inb_S32x512_S32x512_0_0)) :
        View sig .tc _ _ _).write (Elt F) f w Finset.univ = w := Memref.write_access_unit_zero_univ (Elt F) cc0_stg2_1 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.Kernel.Body

end
-- ==== Proof.KFrame.lean ====
/-
  The frame of the word-level kernel program: it runs to the end, faults nowhere, and leaves its three argument
  arrays as it found them.

  The result block at a grid point is a product on the matrix unit, which at the word level is a function of the
  WHOLE block of weight rows in the staging buffer.  The last block of weight rows overhangs the matrix by 256 rows,
  and what the buffer holds on those rows nothing names; so at the word level nothing names what the body leaves in
  the result's buffer either.  The frame does not need it: the proof data below say what the two input buffers hold
  after the body (their blocks, unchanged) and say nothing of the result's, and the run's post then states each
  input array and every buffer the later host lines do not write at its contents when the region was entered.
-/
import proofs.«411945_j89378269430144_3_alg».proof.Proof.KBody

set_option maxRecDepth 16384

noncomputable section

namespace Cert.Kernel.FrameProof

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window is the one whose buffer contents are not named. -/
def forgets0 : Fin 3 → Bool := fun w => w.val == 2

/-- The proof data on core `c`: the arrays as the region finds them; after the body the activations' buffer at its
    block, the weights' buffer at its block's part inside the matrix (filled out past the matrix's end by a word
    nothing reads), the result's buffer unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by
  dsimp only [dats]

/-- The activations' buffer holds their block at every point, fetched there or not. -/
theorem before0_0 (c : Dev nD) (t : Fin cfg0.N) (d) : (dats m 0 c).before 0 t d = iblk m c 0 t :=
  before0_0_of m (dats m 0 c) (A_eq m c 0) (after0_0 m c) t d

/-- The weights' buffer is fetched at every point: it holds the block's part inside the matrix, and on the rows past
    the matrix's end whatever it held. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, win0_1.cut_fill]
  iintro ⟨HΦ, Ho, ⟨%d0, H0⟩, ⟨%d1, H1⟩, ⟨%X2, H2⟩⟩
  iapply (sound_kernel (F := F) c Set.univ (grid0.coords t) (cfg0.slots t 0) (cfg0.slots t 1) (cfg0.slots t 2)
    (iblk m c 0 t) (win0_1.fill (grid0.coords t) d1 (iblk m c 1 t)) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]; · iexact H0
  isplitl [H1]
  · iexists d1; iexact H1
  · iexists _; iexact H2

theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The buffers the host lines after the region may write: every buffer but the two argument arrays the region
    does not stage. -/
def T : Finset (Ref sig .tc) := Finset.univ.filter fun b => b ≠ main_arg0 ∧ b ≠ main_arg2

theorem hT : ∀ ops ∈ ([hostOps1, hostOps1_1] : List (List (HloOp τ sig (Elt F)))), ∀ op ∈ ops,
    ∀ b : Ref sig .tc, Proc.devRef .tc b ∈ op.writes → b ∈ T := by
  -- each line writes its own result buffer only, and none of those is an argument array
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact Finset.mem_filter.mpr ⟨Finset.mem_univ _, by decide⟩
  · simp only [hostOps1_1, List.mem_cons, List.mem_nil_iff, or_false] at hop
    rcases hop with rfl
    simp only [StableHlo.nullary_writes, StableHlo.unary_writes, StableHlo.binary_writes, StableHlo.ternary_writes, StableHlo.quaternary_writes, StableHlo.reshape_writes, StableHlo.binaryIndexed_writes, Finset.mem_singleton] at hb
    obtain rfl := Proc.devRef_injective (τ := τ) _ hb
    exact Finset.mem_filter.mpr ⟨Finset.mem_univ _, by decide⟩

set_option backward.isDefEq.respectTransparency.types false in
theorem run_main : θ_run defs (onTc (τ := τ) (main (F := F))) (s₀ m ρ)
    (Pipeline.RDat.FramePostR (cfgs 0) (fun c => (dats m 0 c).toRForget forgets0) T (V m)) :=
  Pipeline.RDat.θ_run_frame_around_T cfgs (0 : Fin 1) launch0 defs₀ Variants.none (fun c => (dats m 0 c).toRForget forgets0) T m ρ main
    (hbody := fun c => (body_obligation m c).toRForget)
    (hshare := fun c => ((dats m 0 c).toRForget forgets0).share_full fun _ => rfl)
    (howed := fun _ _ => rfl) (V₀ := V0 m) (opss := [hostOps1, hostOps1_1]) (hsub := sfx_sub) (hfresh := sfx_fresh)
    (hkeep := sfx_keeps) (hT := hT) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_⟩) (run_main m ρ)
  · -- an array no window stages and no later line writes: as the region found it, which is as launched
    exact ((h c).2 main_arg0 (Finset.mem_sdiff.mpr ⟨Pipeline.mem_restRefs_of main_arg0 (by decide) (by decide),
      fun hT => (Finset.mem_filter.mp hT).2.1 rfl⟩)).trans (V_main_arg0 m c)
  · -- the weights: an input window's array is never written
    have h1 := (h c).1 1
    rw [((dats m 0 c).toRForget forgets0).ArrAt_in 1 rfl] at h1
    exact h1.trans ((A_eq m c 1).trans (V_main_arg1 m c))
  · exact ((h c).2 main_arg2 (Finset.mem_sdiff.mpr ⟨Pipeline.mem_restRefs_of main_arg2 (by decide) (by decide),
      fun hT => (Finset.mem_filter.mp hT).2.2 rfl⟩)).trans (V_main_arg2 m c)

end Cert.Kernel.FrameProof

end
-- ==== Proof.KIBody.lean ====
/-
  The kernel body of the dense projection, as a triple over the contents of its three staging buffers.

  At one grid point the body loads the whole block of the activations (32 rows of 4096 entries), loads the whole
  block of 512 weight rows, rounds the weights to the narrow format, multiplies the two on the matrix unit into a
  zero accumulator, and stores the 32 by 512 product over the whole result block.  Whatever the three buffers hold,
  the first two are left as they were and the third ends holding that product of the first two.
-/
import proofs.«411945_j89378269430144_3_alg».proof.Proof.Gen.KernelIdeal.Frame
import proofs.«411945_j89378269430144_3_alg».proof.Proof.Gen.KernelIdeal.Skeleton
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body on staging buffer `s0` of the activations' window (it has one), `s1` of the weights' and `s2` of the
    result's (two each): the three whole loads, the product, the whole store.  The result's buffer ends holding the
    product of what the other two hold; those are unchanged. -/
theorem sound_kernel (c : Dev nD) (E : Set ℕ) (i : grid0.Coords) (s0 : Fin 1) (s1 : Fin 2) (s2 : Fin 2)
    (X0 : S32x4096.Idx → Elt F .bf16) (X1 : S512x4096.Idx → Elt F .f32) (X2 : S32x512.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__dense_proj_kernel i (stage0_0 s0) (hstage0_0 s0) (stage0_1 s1) (hstage0_1 s1) (stage0_2 s2) (hstage0_2 s2)) K := by
  -- every access is at offset zero with the buffer's own extents: a load reads the contents, the unmasked store
  -- writes the payload, at whichever buffer of its window each memref is
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_0 : Memref sig .tc _ _ _).view.readAt (Elt F) (Rect.unit (s := S512x4096) ![0, 0] S512x4096.size
        inb_S512x4096_S512x4096_0_0).toLoadRect = id := funext (Memref.readAt_unit_zero (Elt F) cc0_stg1_0 hz _)
    have hw2 : ∀ f w, (((Memref.whole cc0_stg2_0).access (Rect.unit (s := S32x512) ![0, 0] S32x512.size inb_S32x512_S32x512_0_0)) :
        View sig .tc _ _ _).write (Elt F) f w Finset.univ = w := Memref.write_access_unit_zero_univ (Elt F) cc0_stg2_0 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_0 : Memref sig .tc _ _ _).view.readAt (Elt F) (Rect.unit (s := S512x4096) ![0, 0] S512x4096.size
        inb_S512x4096_S512x4096_0_0).toLoadRect = id := funext (Memref.readAt_unit_zero (Elt F) cc0_stg1_0 hz _)
    have hw2 : ∀ f w, (((Memref.whole cc0_stg2_1).access (Rect.unit (s := S32x512) ![0, 0] S32x512.size inb_S32x512_S32x512_0_0)) :
        View sig .tc _ _ _).write (Elt F) f w Finset.univ = w := Memref.write_access_unit_zero_univ (Elt F) cc0_stg2_1 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_1 : Memref sig .tc _ _ _).view.readAt (Elt F) (Rect.unit (s := S512x4096) ![0, 0] S512x4096.size
        inb_S512x4096_S512x4096_0_0).toLoadRect = id := funext (Memref.readAt_unit_zero (Elt F) cc0_stg1_1 hz _)
    have hw2 : ∀ f w, (((Memref.whole cc0_stg2_0).access (Rect.unit (s := S32x512) ![0, 0] S32x512.size inb_S32x512_S32x512_0_0)) :
        View sig .tc _ _ _).write (Elt F) f w Finset.univ = w := Memref.write_access_unit_zero_univ (Elt F) cc0_stg2_0 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S32x4096) ![0, 0] S32x4096.size
        inb_S32x4096_S32x4096_0_0).toLoadRect = id := funext (Memref.readAt_unit_zero (Elt F) cc0_stg0_0 hz _)
    have hr1 : (Memref.whole cc0_stg1_1 : Memref sig .tc _ _ _).view.readAt (Elt F) (Rect.unit (s := S512x4096) ![0, 0] S512x4096.size
        inb_S512x4096_S512x4096_0_0).toLoadRect = id := funext (Memref.readAt_unit_zero (Elt F) cc0_stg1_1 hz _)
    have hw2 : ∀ f w, (((Memref.whole cc0_stg2_1).access (Rect.unit (s := S32x512) ![0, 0] S32x512.size inb_S32x512_S32x512_0_0)) :
        View sig .tc _ _ _).write (Elt F) f w Finset.univ = w := Memref.write_access_unit_zero_univ (Elt F) cc0_stg2_1 hz _
    simp only [owns_whole_eq, cc0__dense_proj_kernel_eq_skeleton]; unfold cc0__dense_proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.KernelIdeal.Body

end
-- ==== Proof.KIPayload.lean ====
/-
  The kernel body's one payload, read at an index at the ideal values.

  The payload is the product of a block of activations `x : [32, 4096]` with a block of weights `w : [512, 4096]`,
  contracting the second axis of both: a shape cast of `x` to its own shape, a change of float format of `w` (the
  identity at the ideal values, where every format holds an extended real), and a matrix product into a zero
  accumulator. So entry `(p, q)` is `∑ k, x (p, k) * w (q, k)`.
-/
import proofs.«411945_j89378269430144_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The operand indices of the product, axis by axis -/

/-- The left operand's row is the result's row (axis 0 of the left operand is not contracted). -/
theorem lhs_pay_0 (i : S32x512.Idx) (c : dot_S32x4096_S512x4096_S32x512_1_1_0_0_n_n.contr.Idx) :
    (dot_S32x4096_S512x4096_S32x512_1_1_0_0_n_n.lhsIdx i c 0).val = (i 0).val := by
  unfold DotDims.lhsIdx
  rw [dif_neg (show ¬(0 : Fin S32x4096.rank) ∈ dot_S32x4096_S512x4096_S32x512_1_1_0_0_n_n.lhsBatch by decide), dif_pos (show (0 : Fin S32x4096.rank) ∈ dot_S32x4096_S512x4096_S32x512_1_1_0_0_n_n.lhsNonContracting by decide)]
  rfl
/-- The left operand's column is the contraction index (axis 1 of the left operand is the contracted one). -/
theorem lhs_pay_1 (i : S32x512.Idx) (c : dot_S32x4096_S512x4096_S32x512_1_1_0_0_n_n.contr.Idx) :
    (dot_S32x4096_S512x4096_S32x512_1_1_0_0_n_n.lhsIdx i c 1).val = (c ⟨0, by decide⟩).val :=
  dot_S32x4096_S512x4096_S32x512_1_1_0_0_n_n.lhsIdx_val_of_single rfl i c
/-- The right operand's row is the result's column (axis 0 of the right operand is not contracted). -/
theorem rhs_pay_0 (i : S32x512.Idx) (c : dot_S32x4096_S512x4096_S32x512_1_1_0_0_n_n.contr.Idx) :
    (dot_S32x4096_S512x4096_S32x512_1_1_0_0_n_n.rhsIdx i c 0).val = (i 1).val := by
  unfold DotDims.rhsIdx
  rw [dif_neg (show ¬(0 : Fin S512x4096.rank) ∈ dot_S32x4096_S512x4096_S32x512_1_1_0_0_n_n.rhsBatch by decide), dif_pos (show (0 : Fin S512x4096.rank) ∈ dot_S32x4096_S512x4096_S32x512_1_1_0_0_n_n.rhsNonContracting by decide)]
  rfl
/-- The right operand's column is the contraction index (axis 1 of the right operand is the contracted one). -/
theorem rhs_pay_1 (i : S32x512.Idx) (c : dot_S32x4096_S512x4096_S32x512_1_1_0_0_n_n.contr.Idx) :
    (dot_S32x4096_S512x4096_S32x512_1_1_0_0_n_n.rhsIdx i c 1).val = (c ⟨0, by decide⟩).val :=
  dot_S32x4096_S512x4096_S32x512_1_1_0_0_n_n.rhsIdx_val_of_single rfl i c

/-! ## The payload at an index -/

/-- entry (p, q) of the block product is the sum over the 4096 contracted entries of row p of the activations times row q of the weights -/
theorem pay_apply (x : Vec Ideal S32x4096 .bf16) (w : Vec Ideal S512x4096 .f32) (p : Fin 32) (q : Fin 512) :
    k0_pay1 (F := Ideal) x w (ix2 p q) = ∑ k : Fin 4096, (x (ix2 p k) : EReal) * (w (ix2 q k) : EReal) := by
  unfold k0_pay1
  simp only [matmul]
  -- the shape cast of a shape to itself is the identity
  rw [shapeCast_self]
  -- into the zero accumulator the product is the bare sum over the contraction index, which has one axis of extent 4096
  rw [Ideal.matmul_constant_zero_apply, ← Equiv.sum_comp (contrEquiv1 dot_S32x4096_S512x4096_S32x512_1_1_0_0_n_n 4096 rfl rfl).symm]
  refine Finset.sum_congr rfl fun k _ => ?_
  have hk := contrEquiv1_symm_val dot_S32x4096_S512x4096_S32x512_1_1_0_0_n_n 4096 rfl rfl k
  have el : dot_S32x4096_S512x4096_S32x512_1_1_0_0_n_n.lhsIdx (ix2 p q) ((contrEquiv1 dot_S32x4096_S512x4096_S32x512_1_1_0_0_n_n 4096 rfl rfl).symm k) = ix2 p k := funext fun a => Fin.ext (by
    match a with
    | ⟨0, _⟩ => exact lhs_pay_0 _ _
    | ⟨1, _⟩ => exact (lhs_pay_1 _ _).trans hk)
  have er : dot_S32x4096_S512x4096_S32x512_1_1_0_0_n_n.rhsIdx (ix2 p q) ((contrEquiv1 dot_S32x4096_S512x4096_S32x512_1_1_0_0_n_n 4096 rfl rfl).symm k) = ix2 q k := funext fun a => Fin.ext (by
    match a with
    | ⟨0, _⟩ => exact rhs_pay_0 _ _
    | ⟨1, _⟩ => exact (rhs_pay_1 _ _).trans hk)
  rw [el, er]
  -- the change of float format is the identity at the ideal values
  rfl

end Cert.KernelIdeal.Payload

end
-- ==== Proof.KIExact.lean ====
/-
  The idealized kernel program's run, with every staging buffer's contents named.

  At the ideal instance a block product at entry (p, q) is the inner product of activation row p with weight row q
  and reads no other weight row.  The last block of weight rows overhangs the matrix by 256 rows; the columns of the
  result block that are written back are exactly the rows of the weight block inside the matrix, so what is written
  back does not depend on what the buffer holds past the matrix's end.  The proof data therefore name all three
  buffers after the body: the activations' block, the weight block's part inside the matrix filled out with zeros, and
  the product of those two.
-/
import proofs.«411945_j89378269430144_3_alg».proof.Proof.KIBody
import proofs.«411945_j89378269430144_3_alg».proof.Proof.KIPayload

set_option maxRecDepth 16384

noncomputable section

open scoped BigOperators

namespace Cert.KernelIdeal.Exact

open Cert.KernelIdeal Cert.KernelIdeal.Gen Cert.KernelIdeal.Body Cert.KernelIdeal.Payload

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- The activations' block at a point (the whole array at every point). -/
abbrev xblk (c : Dev nD) (t : Fin cfg0.N) : Vec Ideal S32x4096 .bf16 := iblk m c 0 t

/-- The weights' staging buffer after the fetch at point `t`: the block's part inside the matrix, and `d` on the rows
    past the matrix's end. -/
abbrev wbuf (c : Dev nD) (t : Fin cfg0.N) (d : S512x4096.Idx → Elt Ideal .f32) : Vec Ideal S512x4096 .f32 :=
  win0_1.fill (grid0.coords t) d (iblk m c 1 t)

/-- Zeros, to fill out a block past the matrix's end where nothing reads it. -/
abbrev zeros : S512x4096.Idx → Elt Ideal .f32 := fun _ => (0 : EReal)

/-- The two clipped windows are cut alike: at every point the result block's columns inside the array are as many
    as the weight block's rows inside the matrix; the weight block spans all 4096 features and the result block
    all 32 rows. -/
theorem xsize_facts : ∀ t : Fin cfg0.N, win0_2.xsize (grid0.coords t) 1 = win0_1.xsize (grid0.coords t) 0
      ∧ win0_1.xsize (grid0.coords t) 1 = 4096 ∧ win0_2.xsize (grid0.coords t) 0 = 32 :=
  (by decide +kernel : ∀ t : Fin grid0.N, win0_2.xsize (grid0.coords t) 1 = win0_1.xsize (grid0.coords t) 0
      ∧ win0_1.xsize (grid0.coords t) 1 = 4096 ∧ win0_2.xsize (grid0.coords t) 0 = 32)

/-- The index, in the weight block's part inside the matrix at point `t`, of row `q` and feature `k`. -/
def widx (t : Fin cfg0.N) (q : Nat) (hq : q < win0_1.xsize (grid0.coords t) 0) (k : Fin 4096) :
    (win0_1.xblock (grid0.coords t)).Idx := fun a => match a with
  | ⟨0, _⟩ => ⟨q, hq⟩
  | ⟨1, _⟩ => ⟨k.val, lt_of_lt_of_eq k.isLt (xsize_facts t).2.1.symm⟩

/-- Entry `j` of the part of the product block that is written back: the inner product of activation row `j 0` with the
    weight block's row `j 1`, a row inside the matrix — whatever the buffer holds past the matrix's end. -/
theorem cut_pay_apply (t : Fin cfg0.N) (x : Vec Ideal S32x4096 .bf16)
    (g : (win0_1.xblock (grid0.coords t)).Idx → Elt Ideal .f32) (d : S512x4096.Idx → Elt Ideal .f32)
    (j : (win0_2.xblock (grid0.coords t)).Idx) (hp : (j 0).val < 32) (hq : (j 1).val < win0_1.xsize (grid0.coords t) 0) :
    win0_2.cut (grid0.coords t) (k0_pay1 x (win0_1.fill (grid0.coords t) d g)) j
      = ∑ k : Fin 4096, (x (ix2 ⟨(j 0).val, hp⟩ k) : EReal) * (g (widx t (j 1).val hq k) : EReal) := by
  have hq' : (j 1).val < 512 := lt_of_lt_of_le hq (win0_1.xsize_le _ 0)
  show k0_pay1 x (win0_1.fill (grid0.coords t) d g) (win0_2.xinj (grid0.coords t) j) = _
  have e : win0_2.xinj (grid0.coords t) j = ix2 ⟨(j 0).val, hp⟩ ⟨(j 1).val, hq'⟩ :=
    funext fun a => Fin.ext (by match a with | ⟨0, _⟩ => rfl | ⟨1, _⟩ => rfl)
  rw [e, pay_apply]
  refine Finset.sum_congr rfl fun k _ => ?_
  congr 1
  have e2 : (ix2 ⟨(j 1).val, hq'⟩ k : S512x4096.Idx) = win0_1.xinj (grid0.coords t) (widx t (j 1).val hq k) :=
    funext fun a => Fin.ext (by match a with | ⟨0, _⟩ => rfl | ⟨1, _⟩ => rfl)
  rw [e2, win0_1.fill_xinj]

/-- So the part of the product block that is written back is the same for any two fillings of the weight buffer past
    the matrix's end. -/
theorem cut_pay_congr (t : Fin cfg0.N) (x : Vec Ideal S32x4096 .bf16)
    (g : (win0_1.xblock (grid0.coords t)).Idx → Elt Ideal .f32) (d d' : S512x4096.Idx → Elt Ideal .f32) :
    win0_2.cut (grid0.coords t) (k0_pay1 x (win0_1.fill (grid0.coords t) d g))
      = win0_2.cut (grid0.coords t) (k0_pay1 x (win0_1.fill (grid0.coords t) d' g)) := by
  funext j
  have hp : (j 0).val < 32 := lt_of_lt_of_eq (j 0).isLt (xsize_facts t).2.2
  have hq : (j 1).val < win0_1.xsize (grid0.coords t) 0 := lt_of_lt_of_eq (j 1).isLt (xsize_facts t).1
  rw [cut_pay_apply t x g d j hp hq, cut_pay_apply t x g d' j hp hq]

/-! ## The proof data -/

/-- The proof data on core `c`: the arrays as the region finds them; after the body the activations' buffer at its
    block, the weights' at its block's part inside the matrix filled out with zeros, the result's at the product of
    those two; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wbuf m c t zeros
    | ⟨2, _⟩ => k0_pay1 (xblk m c t) (wbuf m c t zeros)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wbuf m c t zeros := by dsimp only [dats]
theorem after0_2 (c : Dev nD) (t : Fin cfg0.N) :
    (dats m 0 c).after 2 t = k0_pay1 (xblk m c t) (wbuf m c t zeros) := by dsimp only [dats]

/-- The activations' buffer holds their block at every point, fetched there or not. -/
theorem before0_0 (c : Dev nD) (t : Fin cfg0.N) (d) : (dats m 0 c).before 0 t d = iblk m c 0 t :=
  before0_0_of m (dats m 0 c) (A_eq m c 0) (after0_0 m c) t d

/-- The weights' buffer is fetched at every point: the block's part inside the matrix, and past the matrix's end what
    it held. -/
theorem before0_1 (c : Dev nD) (t : Fin cfg0.N) (d) : (dats m 0 c).before 1 t d = wbuf m c t d := by
  unfold Dat.before; rw [if_pos (fetch0_1 t)]
  show (dats m 0 c).fetched 1 t d = win0_1.fill (grid0.coords t) d (iblk m c 1 t)
  unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, win0_1.cut_fill]
  iintro ⟨HΦ, Ho, ⟨%d0, H0⟩, ⟨%d1, H1⟩, ⟨%d2, H2⟩⟩
  iapply (sound_kernel (F := Ideal) c Set.univ (grid0.coords t) (cfg0.slots t 0) (cfg0.slots t 1) (cfg0.slots t 2)
    (iblk m c 0 t) (wbuf m c t d1) ((dats m 0 c).before 2 t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]; · iexact H0
  isplitl [H1]
  · iexists d1; iexact H1
  · -- the product of what the buffers held agrees, on the part written back, with the product named in the data
    iexists k0_pay1 (xblk m c t) (wbuf m c t d1)
    rw [win0_2.fill_congr_cut (grid0.coords t) (cut_pay_congr t (xblk m c t) (iblk m c 1 t) d1 zeros)]
    iexact H2

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; every array of the pipeline ends at what the proof data compute,
    every other unscoped buffer at what the host lines after the region leave. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1]) (hsub := sfx_sub) (hfresh := sfx_fresh)
    (hkeep := sfx_keeps) (hmain := hmain m Variants.none) (hA := A_eq m) (hΦ := fun _ _ => rfl)

/-- The frame of the idealized kernel program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Exact

end
-- ==== Proof.KIValue.lean ====
/-
  What the idealized kernel program's pallas_call leaves in its result array.

  At the ideal instance the call's result `[32, 11008]` holds at `(p, f)` the inner product, over the 4096 features, of
  row `p` of the activations as the call finds them with row `f` of the weight matrix.  Point `t` of the grid writes
  back columns `512 t` to `512 t + 511` (the last point only 256 columns, to the array's end), each from the product of
  the activations' block with the 512 weight rows of the same numbers; the 22 points' column ranges cover the array.
-/
import proofs.«411945_j89378269430144_3_alg».proof.Proof.KIExact
import Idealize.ShloMosaic.Lib.Pipeline.Value

set_option maxRecDepth 16384

noncomputable section

open scoped BigOperators

namespace Cert.KernelIdeal.Value

open Cert.KernelIdeal Cert.KernelIdeal.Gen Cert.KernelIdeal.Payload Cert.KernelIdeal.Exact

open Idealize.ShloMosaic Idealize.ShloMosaic.ValueIdx
open Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The activations as the call finds them. -/
abbrev xarr (c : Dev nD) : Vec Ideal S32x4096 .bf16 := V m c main_v1
/-- The weight matrix as the call finds it. -/
abbrev warr (c : Dev nD) : Vec Ideal S11008x4096 .f32 := V m c main_arg1

/-- The call's result, index by index: row `i 0` of the activations against row `i 1` of the weights. -/
def Y (c : Dev nD) : S32x11008.Idx → Elt Ideal .f32 := fun i =>
  ∑ k : Fin 4096, (xarr m c (ix2 ⟨(i 0).val, (i 0).isLt⟩ k) : EReal) * (warr m c (ix2 ⟨(i 1).val, (i 1).isLt⟩ k) : EReal)

/-- The printed index maps and cuts, decided over the grid: the activations' block is always block 0; the weights'
    block at point `t` is row block `t`; the result's is column block `t`, 512 columns wide but for the last, 256. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) 0 = 32
    ∧ (t.val < 21 → win0_2.xsize (grid0.coords t) 1 = 512) ∧ (t.val = 21 → win0_2.xsize (grid0.coords t) 1 = 256) :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) 0 = 32
    ∧ (t.val < 21 → win0_2.xsize (grid0.coords t) 1 = 512) ∧ (t.val = 21 → win0_2.xsize (grid0.coords t) 1 = 256))

/-- The activations' block at any point, read at `(p, k)`, is the activations' array there. -/
theorem xblk_apply (c : Dev nD) (t : Fin cfg0.N) (p : Fin 32) (k : Fin 4096) :
    xblk m c t (ix2 p k) = xarr m c (ix2 p k) := by
  show V m c main_v1 (((cfg0.win 0).blk t).view.emb (ix2 p k)) = V m c main_v1 (ix2 p k)
  obtain ⟨e0, e1, -⟩ := idx_facts t
  congr 1
  funext a; apply Fin.ext
  match a with
  | ⟨0, _⟩ => show win0_0.index t (0 : Fin 2) * 32 + 1 * p.val = p.val; omega
  | ⟨1, _⟩ => show win0_0.index t (1 : Fin 2) * 4096 + 1 * k.val = k.val; omega

/-- The weights' block at point `t`, read at its row `q` (inside the matrix) and feature `k`, is the weight matrix at row
    `512 t + q`. -/
theorem wblk_apply (c : Dev nD) (t : Fin cfg0.N) (q : Nat) (hq : q < win0_1.xsize (grid0.coords t) 0) (k : Fin 4096)
    (f : Fin 11008) (hf : f.val = t.val * 512 + q) :
    iblk m c 1 t (widx t q hq k) = warr m c (ix2 f k) := by
  show V m c main_arg1 (((cfg0.win 1).blk t).view.emb (widx t q hq k)) = V m c main_arg1 (ix2 f k)
  obtain ⟨-, -, e2, e3, -⟩ := idx_facts t
  congr 1
  funext a; apply Fin.ext
  match a with
  | ⟨0, _⟩ => show win0_1.index t (0 : Fin 2) * 512 + 1 * q = f.val; omega
  | ⟨1, _⟩ => show win0_1.index t (1 : Fin 2) * 4096 + 1 * k.val = k.val; omega

/-- WHAT POINT `t` WRITES BACK is block `t` of `Y`. -/
theorem flushed_eq (c : Dev nD) (t : Fin cfg0.N) :
    (dats m 0 c).flushed 2 t = ((cfg0.win 2).blk t).view.read (Elt Ideal) (Y m c) := by
  show (cfg0.win 2).cut (grid0.coords t) ((dats m 0 c).after 2 t) = _
  rw [after0_2]
  obtain ⟨-, -, -, -, e4, e5, e6, -⟩ := idx_facts t
  funext j
  have hp : (j 0).val < 32 := lt_of_lt_of_eq (j 0).isLt (xsize_facts t).2.2
  have hq : (j 1).val < win0_1.xsize (grid0.coords t) 0 := lt_of_lt_of_eq (j 1).isLt (xsize_facts t).1
  rw [show (cfg0.win 2).cut (grid0.coords t) (k0_pay1 (xblk m c t) (wbuf m c t zeros)) j
      = win0_2.cut (grid0.coords t) (k0_pay1 (xblk m c t) (win0_1.fill (grid0.coords t) zeros (iblk m c 1 t))) j from rfl,
    cut_pay_apply t (xblk m c t) (iblk m c 1 t) zeros j hp hq]
  show _ = Y m c (((cfg0.win 2).blk t).view.emb j)
  unfold Y
  refine Finset.sum_congr rfl fun k _ => ?_
  congr 1
  · rw [xblk_apply]
    congr 1
    funext a; apply Fin.ext
    match a with
    | ⟨0, _⟩ => show (j 0).val = win0_2.index t (0 : Fin 2) * 32 + 1 * (j 0).val; omega
    | ⟨1, _⟩ => rfl
  · refine wblk_apply m c t (j 1).val hq k _ ?_
    show win0_2.index t (1 : Fin 2) * 512 + 1 * (j 1).val = t.val * 512 + (j 1).val
    omega

/-- An index of the result array is in point `t`'s block iff each coordinate is in the block's range on its axis,
    the block cut at the array's end. -/
theorem mem_blk (t : Fin cfg0.N) (i : S32x11008.Idx) :
    i ∈ ((cfg0.win 2).blk t).view.set ↔ ∀ a : Fin 2, win0_2.index t a * S32x512.size a ≤ (i a).val
      ∧ (i a).val < win0_2.index t a * S32x512.size a + win0_2.xsize (grid0.coords t) a := by
  show i ∈ ((View.whole main_v2).slice (win0_2.rect t)).set ↔ _
  rw [View.set_slice_whole, Rect.mem_set_unit]
  exact Iff.rfl

/-- Every index of the result array is in some point's block: column `f` in point `f / 512`'s. -/
theorem cover (i : S32x11008.Idx) :
    ∃ t : Fin cfg0.N, (cfg0.win 2).flush t = true ∧ i ∈ ((cfg0.win 2).blk t).view.set := by
  have hi0 : (i 0).val < 32 := (i 0).isLt
  have hi1 : (i 1).val < 11008 := (i 1).isLt
  refine ⟨⟨(i 1).val / 512, by show (i 1).val / 512 < grid0.N; rw [N_0]; omega⟩, flush0_2 _, ?_⟩
  rw [mem_blk]
  obtain ⟨-, -, -, -, e4, e5, e6, e7, e8⟩ := idx_facts ⟨(i 1).val / 512, by show (i 1).val / 512 < grid0.N; rw [N_0]; omega⟩
  intro a
  match a with
  | ⟨0, _⟩ =>
    show win0_2.index _ (0 : Fin 2) * 32 ≤ (i 0).val ∧ (i 0).val < win0_2.index _ (0 : Fin 2) * 32 + win0_2.xsize _ 0
    rw [e4, e6]; omega
  | ⟨1, _⟩ =>
    show win0_2.index _ (1 : Fin 2) * 512 ≤ (i 1).val ∧ (i 1).val < win0_2.index _ (1 : Fin 2) * 512 + win0_2.xsize _ 1
    rw [e5]
    by_cases h21 : (i 1).val / 512 < 21
    · rw [e7 h21]; show (i 1).val / 512 * 512 ≤ (i 1).val ∧ (i 1).val < (i 1).val / 512 * 512 + 512; omega
    · have h : (i 1).val / 512 = 21 := by omega
      rw [e8 h]; show (i 1).val / 512 * 512 ≤ (i 1).val ∧ (i 1).val < (i 1).val / 512 * 512 + 256; omega

/-- THE RESULT ARRAY after the run is `Y`. -/
theorem final (c : Dev nD) : (dats m 0 c).arrAt 2 cfg0.N = Y m c :=
  (dats m 0 c).arrAt_eq_of_cover 2 (Y m c) (fun t _ => flushed_eq m c t) cover

end Cert.KernelIdeal.Value

end
-- ==== Proof.KITailDef.lean ====
/-
  The kernel program's host lines after its pallas_call, composed into one function.

  The lines take the call's result `y : [32, 11008]` and the row numbers `I : [4403]`.  They normalise each row number
  (a negative one has 11008 added), lay the numbers out as a column, test each for lying in `[0, 11007]`, gather the
  columns of `y` the numbers name, replace the entries whose number failed the test by a fixed word, and reshape the
  `[32, 4403]` result to `[32, 1, 4403]`.
-/
import proofs.«411945_j89378269430144_3_alg».proof.Proof.Gen.KernelIdeal
import Idealize.ShloMosaic.PureOps.Ideal

noncomputable section

namespace Cert.KernelIdeal.Tail

open Idealize.ShloMosaic Cert.KernelIdeal Cert.KernelIdeal.Facts₀

/-- The normalised row numbers as a column. -/
def col (I : IVec S4403 32) : IVec S4403x1 32 :=
  broadcastInDim S4403x1 ![0] bcast_S4403_S4403x1_0
    (select (cmpi .slt I (broadcastInDim S4403 ![] bcast_S_S4403 (constantI S_ 32 0#32)))
      (addi I (broadcastInDim S4403 ![] bcast_S_S4403 (constantI S_ 32 11008#32))) I)

/-- The host lines after the call, composed. -/
def tailFn (y : FVec Ideal S32x11008 .f32) (I : IVec S4403 32) : FVec Ideal S32x1x4403 .f32 :=
  shapeCast S32x1x4403
    (select
      (broadcastInDim S32x4403 ![1] bcast_S4403_S32x4403_1
        (Host.reduce IntOp.andi
          (andi (cmpi .sge (col I) (broadcastInDim S4403x1 ![] bcast_S_S4403x1 (constantI S_ 32 0#32)))
                (cmpi .sle (col I) (broadcastInDim S4403x1 ![0, 1] bcast_S1x1_S4403x1_0_1
                  (broadcastInDim S1x1 ![1] bcast_S1_S1x1_1 (constantI S1 32 11007#32)))))
          (constantI S_ 1 1#1) reducesTo_S4403x1_S4403_d1 h_S_))
      (Host.gather gather_S32x11008_S4403x1_S32x4403_0_1_n_n_1_1_321 y (col I))
      (broadcastInDim S32x4403 ![] bcast_S_S32x4403 (constant (F := Ideal) S_ .f32 0x7FC00000#32)))
    shapeCasts_S32x4403_S32x1x4403

end Cert.KernelIdeal.Tail

end
-- ==== Proof.LibColGather.lean ====
/-
  Column gathers of a matrix, read at an index.

  A matrix `x : [M, N]` gathered at a column `idx : [E, 1]` of column numbers gives `[M, E]`: column `e` of the
  result is column `clamp(idx e)` of `x`, that is, entry `(r, e)` of the result is `x` at `(r, clamp(idx e))`
  (the start index read signed and clamped into `[0, N - 1]`). The whole of each column is taken (slice size `M`
  on the rows, offset axis 0 of the result), and the column axis of the operand is collapsed (slice size 1).
-/
import Idealize.ShloMosaic.PureOps.Ideal
import Idealize.ShloMosaic.Lib.ValueIdx

noncomputable section

namespace ColGather

open Idealize.ShloMosaic Idealize.ShloMosaic.ValueIdx

/-- The dimension numbers of `x[:, idx]` over the columns of a matrix: operand `[M, N]`, start indices `[E, 1]`,
    result `[M, E]`; the rows are the offset axis, the columns are collapsed and named by the start index. -/
abbrev gatherDims (M N E : Nat)
    (wf : GatherDims.WF ⟨2, ![M, N]⟩ ⟨2, ![E, 1]⟩ ⟨2, ![M, E]⟩ [0] [1] [] [1] [] 1 ![M, 1]) :
    GatherDims ⟨2, ![M, N]⟩ ⟨2, ![E, 1]⟩ ⟨2, ![M, E]⟩ where
  offsetDims := [0]
  collapsedSliceDims := [1]
  operandBatchingDims := []
  startIndicesBatchingDims := []
  startIndexMap := [1]
  indexVectorDim := 1
  sliceSizes := ![M, 1]
  wf := wf

/-- The column a start index names: read signed, clamped into `[0, N - 1]`. -/
def clampCol {w : Nat} (N : Nat) (hN : 0 < N) (b : BitVec w) : Fin N := ⟨min b.toInt.toNat (N - 1), by omega⟩

/-- Entry `(r, e)` of the column gather is the matrix at row `r`, the clamped column `idx e`. -/
theorem gather_apply {α : Type} {M N E w : Nat} (hN : 0 < N)
    (wf : GatherDims.WF ⟨2, ![M, N]⟩ ⟨2, ![E, 1]⟩ ⟨2, ![M, E]⟩ [0] [1] [] [1] [] 1 ![M, 1])
    (x : (⟨2, ![M, N]⟩ : Shape).Idx → α) (idx : IVec ⟨2, ![E, 1]⟩ w) (r : Fin M) (e : Fin E) :
    Host.gather (gatherDims M N E wf) x idx (ix2 r e) = x (ix2 r (clampCol N hN (idx (ix2 e 0)))) := by
  unfold Host.gather
  congr 1
  funext a
  refine Fin.ext ?_
  match a with
  | ⟨0, _⟩ =>
    -- on the rows: no start index, no batching, the offset coordinate is the result's row
    show (gatherDims M N E wf).start (ix2 r e) idx 0 + (gatherDims M N E wf).batchCoord (ix2 r e) 0
      + (gatherDims M N E wf).offCoord (ix2 r e) 0 = r.val
    rw [GatherDims.batchCoord_eq_zero _ _ _ List.not_mem_nil]
    unfold GatherDims.start
    rw [dif_neg (show (0 : Fin 2) ∉ (gatherDims M N E wf).startIndexMap from by
      show (0 : Fin 2) ∉ [(1 : Fin 2)]; decide)]
    simp only [Nat.add_zero, Nat.zero_add]
    rfl
  | ⟨1, _⟩ =>
    -- on the columns: the clamped start index alone, the axis being collapsed and not batching
    show (gatherDims M N E wf).start (ix2 r e) idx 1 + (gatherDims M N E wf).batchCoord (ix2 r e) 1
      + (gatherDims M N E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gatherDims M N E wf).startIndexMap from List.mem_singleton.mpr rfl)]
    -- the start index of result entry `(r, e)` is read at `(e, 0)`
    have hsi : (gatherDims M N E wf).siIdx (ix2 r e) ⟨List.idxOf (1 : Fin 2) (gatherDims M N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- when the start index, read signed, is already a column number, the clamp is that number -/
theorem clampCol_of_range {w : Nat} (N : Nat) (hN : 0 < N) (b : BitVec w) (h0 : 0 ≤ b.toInt) (h1 : b.toInt < N) :
    (clampCol N hN b).val = b.toInt.toNat := by
  show min b.toInt.toNat (N - 1) = b.toInt.toNat
  omega

end ColGather

end
-- ==== Proof.IndexRange.lean ====
/-
  The index input of this certificate, read through its printed precondition: every entry, read as a signed
  32-bit word, lies in [-11008, 11008); and the row number both programs make of such an entry (a negative one
  counted from the end of the 11008 rows) lies in [0, 11008), so the in-range test of it answers one twice.
-/
import proofs.«411945_j89378269430144_3_alg».proof.Pre_finite_inputs
import Idealize.ShloMosaic.Lib.ReduceAll
import Idealize.ShloMosaic.Lib.ValueIdx
import Idealize.ShloMosaic.Lib.StableHlo.Predicate
import Idealize.ShloMosaic.Lib.Pipeline.Value

namespace Cert.IndexRange
open Idealize.ShloMosaic

/-- a row number as the two programs normalise it: a negative one counted from the end (adds 11008), others kept -/
def wrap (j : BitVec 32) : BitVec 32 := Scalar.select (IntOp.cmpi .slt j 0#32) (IntOp.addi j 11008#32) j

/-- the signed value of the literal 11008 -/
private theorem toInt_11008 : (11008#32 : BitVec 32).toInt = 11008 := by decide

/-- the signed value of the literal 0 -/
private theorem toInt_zero32 : (0#32 : BitVec 32).toInt = 0 := by decide

/-- a negative word is normalised to itself plus 11008 -/
theorem wrap_of_neg {j : BitVec 32} (hj : j.toInt < 0) : wrap j = j + 11008#32 := by
  have hc : IntOp.cmpi .slt j 0#32 = 1#1 := IntOp.cmpi_slt.mpr (by rw [toInt_zero32]; exact hj)
  show (if IntOp.cmpi .slt j 0#32 = 1#1 then IntOp.addi j 11008#32 else j) = j + 11008#32
  rw [if_pos hc]
  rfl

/-- a non-negative word is kept -/
theorem wrap_of_nonneg {j : BitVec 32} (hj : 0 ≤ j.toInt) : wrap j = j := by
  have hc : ¬ IntOp.cmpi .slt j 0#32 = 1#1 := fun h => by
    have := IntOp.cmpi_slt.mp h
    rw [toInt_zero32] at this
    omega
  show (if IntOp.cmpi .slt j 0#32 = 1#1 then IntOp.addi j 11008#32 else j) = j
  rw [if_neg hc]

/-- the signed value of the normalised row number: 11008 is added to a negative word of the range without wrapping -/
theorem toInt_wrap (j : BitVec 32) (h : -11008 ≤ j.toInt ∧ j.toInt < 11008) :
    (wrap j).toInt = if j.toInt < 0 then j.toInt + 11008 else j.toInt := by
  by_cases hj : j.toInt < 0
  · rw [wrap_of_neg hj, if_pos hj, BitVec.toInt_add, toInt_11008, Int.bmod_def]
    omega
  · rw [wrap_of_nonneg (by omega), if_neg hj]

/-- under the certificate's precondition every entry of the index input, read signed, lies in [-11008, 11008) -/
theorem range_of_pre {F : FTy → Type} [FloatOps F] [Cert.Pre_finite_inputs.Facts] (a0 : FVec F Cert.Pre_finite_inputs.S32x1x4096 .f32) (a1 : FVec F Cert.Pre_finite_inputs.S11008x4096 .f32) (a2 : IVec Cert.Pre_finite_inputs.S4403 32)
    (h : Cert.Pre_finite_inputs.fn (F := F) a0 a1 a2 = fun _ => 1#1) (r : Cert.Pre_finite_inputs.S4403.Idx) : -11008 ≤ (a2 r).toInt ∧ (a2 r).toInt < 11008 := by
  -- the scalar shape has one index
  haveI : Subsingleton Cert.Pre_finite_inputs.S_.Idx := ⟨fun a b => funext fun d => d.elim0⟩
  -- the precondition at its one index: a conjunction of four bits
  have h0 := congrFun h ValueIdx.ix0
  dsimp only [Cert.Pre_finite_inputs.fn, Cert.Pre_finite_inputs.fn_part1, andi] at h0
  -- the last two conjuncts are the two range tests, each an and-reduction over the index vector
  obtain ⟨h12, h15⟩ := IntOp.andi_eq_one.1 h0
  obtain ⟨-, h11⟩ := IntOp.andi_eq_one.1 h12
  -- an and-reduction into one bit that is one had a one at every entry
  have hge := Host.reduce_andi_all _ _ _ _ _ h11 r
  have hlt := Host.reduce_andi_all _ _ _ _ _ h15 r
  -- at entry r each test compares the entry with the broadcast constant, which reads the constant everywhere
  dsimp only [cmpi, broadcastInDim, constantI] at hge hlt
  rw [IntOp.cmpi_sge, show (4294956288#32 : BitVec 32).toInt = -11008 from by decide] at hge
  rw [IntOp.cmpi_slt, toInt_11008] at hlt
  exact ⟨hge, hlt⟩

theorem wrap_range (j : BitVec 32) (h : -11008 ≤ j.toInt ∧ j.toInt < 11008) : 0 ≤ (wrap j).toInt ∧ (wrap j).toInt < 11008 := by
  rw [toInt_wrap j h]
  split <;> omega

/-- so the kernel's in-range test of the normalised index passes: both of its comparisons answer one -/
theorem wrap_sge (j : BitVec 32) (h : -11008 ≤ j.toInt ∧ j.toInt < 11008) : IntOp.cmpi .sge (wrap j) 0#32 = 1#1 := by
  rw [IntOp.cmpi_sge, toInt_zero32]
  exact (wrap_range j h).1

theorem wrap_sle (j : BitVec 32) (h : -11008 ≤ j.toInt ∧ j.toInt < 11008) : IntOp.cmpi .sle (wrap j) 11007#32 = 1#1 := by
  rw [IntOp.cmpi_sle, show (11007#32 : BitVec 32).toInt = 11007 from by decide]
  have := (wrap_range j h).2
  omega

end Cert.IndexRange
-- ==== Proof.Spec.lean ====
/-
  What both programs compute, as one function of the three argument arrays.

  The activations are `X : [32, 1, 4096]`, the weights `W : [11008, 4096]`, the row numbers `I : [4403]` (32-bit words read
  signed).  Output column `r` selects the weight row `row I r`: the word `I r` with a negative value counted from the end
  of the matrix (11008 added), then clamped into the matrix's rows.  Entry `(b, s, r)` of the result is the inner
  product, over the 4096 features, of activation row `(b, s)` with that weight row.
-/
import proofs.«411945_j89378269430144_3_alg».proof.Proof.IndexRange
import Idealize.ShloMosaic.PureOps.Ideal
import Idealize.ShloMosaic.Lib.ValueIdx

noncomputable section

open scoped BigOperators

namespace Cert.Spec

open Idealize.ShloMosaic Idealize.ShloMosaic.ValueIdx

/-- The weight row output column `r` selects: the row number normalised, read signed, clamped into `[0, 11007]`. -/
def row (I : (⟨1, ![4403]⟩ : Shape).Idx → BitVec 32) (r : Fin 4403) : Fin 11008 :=
  ⟨min (Cert.IndexRange.wrap (I (ix1 r))).toInt.toNat (11008 - 1), by omega⟩

/-- When the row number lies in `[-11008, 11008)` the clamp does nothing: the selected row is the normalised number. -/
theorem row_val (I : (⟨1, ![4403]⟩ : Shape).Idx → BitVec 32) (r : Fin 4403)
    (h : -11008 ≤ (I (ix1 r)).toInt ∧ (I (ix1 r)).toInt < 11008) :
    (row I r).val = (Cert.IndexRange.wrap (I (ix1 r))).toInt.toNat := by
  have hw := Cert.IndexRange.wrap_range (I (ix1 r)) h
  show min (Cert.IndexRange.wrap (I (ix1 r))).toInt.toNat (11008 - 1) = _
  omega

/-- Entry `(b, s, r)` of the result: activation row `(b, s)` against the selected weight row. -/
def out (X : (⟨3, ![32, 1, 4096]⟩ : Shape).Idx → EReal) (W : (⟨2, ![11008, 4096]⟩ : Shape).Idx → EReal)
    (I : (⟨1, ![4403]⟩ : Shape).Idx → BitVec 32) (b : Fin 32) (s : Fin 1) (r : Fin 4403) : EReal :=
  ∑ k : Fin 4096, X (ix3 b s k) * W (ix2 (row I r) k)

/-- The whole result `[32, 1, 4403]`: at each index the entry above. -/
def res (X : (⟨3, ![32, 1, 4096]⟩ : Shape).Idx → EReal) (W : (⟨2, ![11008, 4096]⟩ : Shape).Idx → EReal)
    (I : (⟨1, ![4403]⟩ : Shape).Idx → BitVec 32) : (⟨3, ![32, 1, 4403]⟩ : Shape).Idx → EReal :=
  fun i => out X W I ⟨(i 0).val, (i 0).isLt⟩ ⟨(i 1).val, (i 1).isLt⟩ ⟨(i 2).val, (i 2).isLt⟩

theorem res_ix3 (X : (⟨3, ![32, 1, 4096]⟩ : Shape).Idx → EReal) (W : (⟨2, ![11008, 4096]⟩ : Shape).Idx → EReal)
    (I : (⟨1, ![4403]⟩ : Shape).Idx → BitVec 32) (b : Fin 32) (s : Fin 1) (r : Fin 4403) :
    res X W I (ix3 b s r) = out X W I b s r := rfl

end Cert.Spec

end
-- ==== Proof.KITail.lean ====
/-
  The host lines after the kernel call, read at one entry.

  The composed function takes the call's result y : [32, 11008] and the row numbers I : [4403].  When every row
  number, read signed, lies in [-11008, 11008), each normalised number lies in [0, 11008): both range tests answer
  one, so the mask keeps every gathered entry, the clamp of the gather does nothing, and entry (b, s, r) of the
  reshaped result is y at row b, the column the normalised number r names — the weight row the specification selects.
-/
import proofs.«411945_j89378269430144_3_alg».proof.Proof.KITailDef
import proofs.«411945_j89378269430144_3_alg».proof.Proof.Gen.KernelIdeal
import proofs.«411945_j89378269430144_3_alg».proof.Proof.LibColGather
import proofs.«411945_j89378269430144_3_alg».proof.Proof.IndexRange
import proofs.«411945_j89378269430144_3_alg».proof.Proof.Spec
import Idealize.ShloMosaic.Lib.ValueIdx
import Idealize.ShloMosaic.Lib.Pipeline.Value
import Idealize.ShloMosaic.PureOps.Reduce

noncomputable section

namespace Cert.KernelIdeal.Tail

open Idealize.ShloMosaic Idealize.ShloMosaic.ValueIdx Cert.KernelIdeal Cert.KernelIdeal.Facts₀

/-- entry (r, 0) of the column is the normalised row number r -/
theorem col_at (I : IVec S4403 32) (i : S4403x1.Idx) : col I i = Cert.IndexRange.wrap (I (ix1 (i 0))) := by
  unfold col
  refine (broadcastInDim_apply _ bcast_S4403_S4403x1_0 _ i (ix1 (i 0)) (fun a => match a with
    | ⟨0, _⟩ => by show (i 0).val = if (4403 : Nat) = 1 then 0 else (i 0).val; rw [if_neg (by decide)])).trans ?_
  -- at one entry the select, the comparison and the addition act on the entry, and a broadcast scalar reads the scalar
  rfl

/-- a left fold by "and" from one, over words that are all one, is one -/
theorem foldl_andi_one {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a (List.mem_cons_self ..)]
    exact foldl_andi_one x l fun i hi => h i (List.mem_cons_of_mem _ hi)

/-- when every row number lies in [-11008, 11008), every normalised number passes both range tests, so the
    and-reduction of the tests over the unit axis answers one at every position -/
theorem mask_at (I : IVec S4403 32) (hI : ∀ r : Fin 4403, -11008 ≤ (I (ix1 r)).toInt ∧ (I (ix1 r)).toInt < 11008)
    (j : S4403.Idx) :
    Host.reduce IntOp.andi
      (andi (cmpi .sge (col I) (broadcastInDim S4403x1 ![] bcast_S_S4403x1 (constantI S_ 32 0#32)))
            (cmpi .sle (col I) (broadcastInDim S4403x1 ![0, 1] bcast_S1x1_S4403x1_0_1 (broadcastInDim S1x1 ![1] bcast_S1_S1x1_1 (constantI S1 32 11007#32)))))
      (constantI S_ 1 1#1) reducesTo_S4403x1_S4403_d1 h_S_ j = 1#1 := by
  rw [Host.reduce_eq_foldl]
  refine foldl_andi_one _ _ fun i _ => ?_
  -- at entry i the two tests compare the normalised number with 0 and with 11007
  show IntOp.andi (IntOp.cmpi .sge (col I i) 0#32) (IntOp.cmpi .sle (col I i) 11007#32) = 1#1
  rw [col_at, Cert.IndexRange.wrap_sge _ (hI (i 0)), Cert.IndexRange.wrap_sle _ (hI (i 0))]
  rfl

/-- entry (b, r) of the gather is the call's result at row b, the column the normalised number r names, clamped -/
theorem gather_at (y : FVec Ideal S32x11008 .f32) (I : IVec S4403 32) (b : Fin 32) (r : Fin 4403) :
    Host.gather gather_S32x11008_S4403x1_S32x4403_0_1_n_n_1_1_321 y (col I) (ix2 b r)
      = y (ix2 b (ColGather.clampCol 11008 (by decide) (Cert.IndexRange.wrap (I (ix1 r))))) := by
  have h := ColGather.gather_apply (M := 32) (N := 11008) (E := 4403) (by decide)
    gather_S32x11008_S4403x1_S32x4403_0_1_n_n_1_1_321_wf y (col I) b r
  rw [col_at] at h
  exact h

/-- when every row number lies in [-11008, 11008), entry (b, s, r) of the host lines' result is the call's result at row b, column the selected weight row -/
theorem tail_at (y : FVec Ideal S32x11008 .f32) (I : IVec S4403 32) (hI : ∀ r : Fin 4403, -11008 ≤ (I (ix1 r)).toInt ∧ (I (ix1 r)).toInt < 11008) (b : Fin 32) (s : Fin 1) (r : Fin 4403) :
    tailFn y I (ix3 b s r) = y (ix2 b (Cert.Spec.row I r)) := by
  unfold tailFn
  -- the reshape [32, 4403] → [32, 1, 4403] keeps the row-major position: (b, s, r) reads (b, r)
  refine (shapeCast_apply _ shapeCasts_S32x4403_S32x1x4403 (ix3 b s r) (ix2 b r) (by
    have hs : s.val = 0 := by omega
    rw [Shape.rowMajor_val_two, Shape.rowMajor_val_three]
    show b.val * 4403 + r.val = (b.val * 1 + s.val) * 4403 + r.val
    rw [hs, Nat.mul_one, Nat.add_zero])).trans ?_
  rw [select_apply]
  -- the mask, a vector along the columns broadcast down the rows, reads its entry r, which is one
  rw [broadcastInDim_apply _ bcast_S4403_S32x4403_1 _ (ix2 b r) (ix1 r) (fun a => match a with
    | ⟨0, _⟩ => by show r.val = if (4403 : Nat) = 1 then 0 else r.val; rw [if_neg (by decide)])]
  rw [mask_at I hI, select_one, gather_at]
  -- the clamped column is the selected weight row: both are the normalised number clamped into [0, 11007]
  rfl

end Cert.KernelIdeal.Tail

end
-- ==== Proof.KITailRun.lean ====
/-
  What the result buffer holds after the host lines that follow the call.

  After the region the core's buffers are the region-entry contents with the pipeline's three arrays replaced by what the
  proof data compute for them. The lines after the call read two of these buffers: the call's result array (window 2's
  array) and the index input (no window's array, and written by no line before the region, so still as launched). Each
  line writes its own buffer with its function of the buffers it reads; reading the last buffer back through the lines
  gives the lines' composed function of those two.
-/
import proofs.«411945_j89378269430144_3_alg».proof.Proof.Gen.KernelIdeal.Frame
import proofs.«411945_j89378269430144_3_alg».proof.Proof.KITailDef
import Idealize.ShloMosaic.Lib.StableHlo.Run

set_option maxRecDepth 16384

noncomputable section

namespace Cert.KernelIdeal.TailRun

open Idealize.ShloMosaic Idealize.ShloMosaic.TcCoe Idealize.SL.Sem Cert.KernelIdeal Cert.KernelIdeal.Gen
open Idealize.ShloMosaic.Pipeline (Dat)
open Idealize.ShloMosaic.StableHlo

variable (m : (ℓ : Loc nD τ sig) → Buf (Elt Ideal) ℓ)

set_option maxHeartbeats 1000000 in
/-- after the lines that follow the call, the result buffer holds their composed function of the call's result array (as the proof data compute it) and of the index input as launched -/
theorem W_main_v4 (dats : (p : Fin 1) → (c : Dev nD) → Dat τ (Elt Ideal) Unit ℕ (UR sig nD τ) ℕ (cfgs p) c) (c : Dev nD) :
    Pipeline.afterTail₀ cfgs dats 0 (V0 m) [hostOps1, hostOps1_1] c main_v4
      = Cert.KernelIdeal.Tail.tailFn ((dats 0 c).arrAt 2 cfg0.N) (m ((c : Thread nD τ).loc main_arg2)) := by
  unfold Pipeline.afterTail₀
  -- the two buffers the lines read, in the valuation the region leaves
  have hy : Pipeline.withArrays (cfgs 0).spec c (V0 m c) (fun w => (dats 0 c).arrAt w (cfgs 0).N) (Proc.devRef .tc main_v2)
      = (dats 0 c).arrAt 2 cfg0.N :=
    Pipeline.withArrays_arr spec0 winFacts0.arr_inj c (V0 m c) (fun w => (dats 0 c).arrAt w cfg0.N) 2
  have hI : Pipeline.withArrays (cfgs 0).spec c (V0 m c) (fun w => (dats 0 c).arrAt w (cfgs 0).N) (Proc.devRef .tc main_arg2)
      = m ((c : Thread nD τ).loc main_arg2) :=
    (Pipeline.withArrays_of_ne spec0 c (V0 m c) (fun w => (dats 0 c).arrAt w cfg0.N) main_arg2
      (by exact (by decide : ∀ w, Pipeline.arrRef spec0 w ≠ main_arg2))).trans (V_main_arg2 m c)
  generalize Pipeline.withArrays (cfgs 0).spec c (V0 m c) (fun w => (dats 0 c).arrAt w (cfgs 0).N) = W at hy hI ⊢
  simp only [hostOps1, hostOps1_1, List.flatten_cons, List.flatten_nil, List.append_nil, List.cons_append, List.nil_append]
  -- each line's result at its own buffer is its function of what it reads; at any other buffer, what was there
  after_results
  rw [hI, hy]
  -- what is left is the composed function written out, with the typed references' transports along `rfl`
  rfl

end Cert.KernelIdeal.TailRun

end
-- ==== Proof.KIPrefix.lean ====
/-
  What the kernel program's call finds in its first operand's array.  Two host lines run before the call: a reshape of the
  [32, 1, 4096] activations to [32, 4096], which keeps the row-major position of every entry, and a change of float
  format, which at the ideal instance (the extended reals) is the identity.  So entry (p, k) of the array is the input's
  entry (p, 0, k).
-/
import proofs.«411945_j89378269430144_3_alg».proof.Proof.Gen.KernelIdeal.Frame
import Idealize.ShloMosaic.Lib.ValueIdx
import Idealize.ShloMosaic.Lib.Pipeline.Value
import Idealize.ShloMosaic.Lib.StableHlo.Run

namespace Cert.KernelIdeal.Prefix
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- the activations as the call finds them: entry (p, k) is the input's entry (p, 0, k) (a reshape, then a change of format that is the identity on the extended reals) -/
theorem V_main_v1_apply (c : Dev nD) (p : Fin 32) (k : Fin 4096) :
    (V m c main_v1 : S32x4096.Idx → Elt Ideal .bf16) (ix2 p k) = (m ((c : Thread nD τ).loc main_arg0) : S32x1x4096.Idx → Elt Ideal .f32) (ix3 p 0 k) := by
  -- the whole array: the two host lines applied to the input as launched
  have e : @Eq (S32x4096.Idx → Elt Ideal .bf16) (V m c main_v1)
      (truncf (F := Ideal) .bf16 (shapeCast S32x4096 (m ((c : Thread nD τ).loc main_arg0) : S32x1x4096.Idx → Elt Ideal .f32)
        Facts₀.shapeCasts_S32x1x4096_S32x4096) Facts₀.bitsLt_bf16_f32) := by
    show StableHlo.after hostOps0 (fun b => m (c, b)) (Proc.devRef .tc main_v1) = _
    after_results
    rfl
  refine (congrFun e (ix2 p k)).trans ?_
  -- the change of format is the identity on the extended reals
  rw [truncf_apply]
  -- the reshape keeps the row-major position: (p * 1 + 0) * 4096 + k = p * 4096 + k
  refine shapeCast_apply _ Facts₀.shapeCasts_S32x1x4096_S32x4096 (ix2 p k) (ix3 p 0 k) ?_
  rw [Shape.rowMajor_val_three, Shape.rowMajor_val_two]
  show (p.val * 1 + 0) * 4096 + k.val = p.val * 4096 + k.val
  omega

end Cert.KernelIdeal.Prefix
-- ==== Proof.KIAlg.lean ====
/-
  The idealized kernel program, run: its result buffer ends holding the specification's result.

  The pallas_call leaves in its result array the inner products of every activation row with every weight row; the host
  lines after it pick, for output column `r`, the array's column whose number is the normalised row number `I r`.  When
  every row number lies in `[-11008, 11008)` that number passes the lines' range test, so entry `(b, s, r)` is the inner
  product of activation row `b` (the input's row `(b, s)`: the reshape before the call drops the unit axis, and the change
  of float format is the identity on the extended reals) with the selected weight row: the specification's entry.
-/
import proofs.«411945_j89378269430144_3_alg».proof.Defs
import proofs.«411945_j89378269430144_3_alg».proof.Proof.Gen.Pre_finite_inputs
import proofs.«411945_j89378269430144_3_alg».proof.Proof.KIValue
import proofs.«411945_j89378269430144_3_alg».proof.Proof.KITail
import proofs.«411945_j89378269430144_3_alg».proof.Proof.KITailRun
import proofs.«411945_j89378269430144_3_alg».proof.Proof.KIPrefix
import proofs.«411945_j89378269430144_3_alg».proof.Proof.IndexRange
import proofs.«411945_j89378269430144_3_alg».proof.Proof.Spec

set_option maxRecDepth 16384

noncomputable section

open scoped BigOperators

namespace Cert.KernelIdeal.Alg

open Cert.KernelIdeal Cert.KernelIdeal.Gen

open Idealize.ShloMosaic Idealize.ShloMosaic.ValueIdx
open Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The three argument arrays as launched, at their literal types. -/
abbrev argX (c : Dev nD) : S32x1x4096.Idx → Elt Ideal .f32 := m ((c : Thread nD τ).loc main_arg0)
abbrev argW (c : Dev nD) : S11008x4096.Idx → Elt Ideal .f32 := m ((c : Thread nD τ).loc main_arg1)
abbrev argI (c : Dev nD) : S4403.Idx → BitVec 32 := m ((c : Thread nD τ).loc main_arg2)

/-- Under the certificate's precondition every row number lies in `[-11008, 11008)`. -/
theorem range_of_pre (hpre : Cert.Pre_KernelIdeal m) (c : Dev nD) (r : Fin 4403) :
    -11008 ≤ (argI m c (ix1 r)).toInt ∧ (argI m c (ix1 r)).toInt < 11008 :=
  Cert.IndexRange.range_of_pre (F := Ideal) (argX m c) (argW m c) (argI m c) (hpre c) (ix1 r)

/-- The host lines after the call, applied to the call's result, give the specification's result. -/
theorem result_eq (c : Dev nD)
    (hI : ∀ r : Fin 4403, -11008 ≤ (argI m c (ix1 r)).toInt ∧ (argI m c (ix1 r)).toInt < 11008) :
    Cert.KernelIdeal.Tail.tailFn (Cert.KernelIdeal.Value.Y m c) (argI m c)
      = Cert.Spec.res (argX m c) (argW m c) (argI m c) := by
  funext i
  obtain ⟨b, s, r, rfl⟩ : ∃ (b : Fin 32) (s : Fin 1) (r : Fin 4403), i = ix3 b s r := ⟨_, _, _, eq_ix3 i⟩
  rw [Cert.Spec.res_ix3, Cert.KernelIdeal.Tail.tail_at _ _ hI b s r]
  have hs : s = 0 := Subsingleton.elim _ _
  subst hs
  show (∑ k : Fin 4096, (Cert.KernelIdeal.Value.xarr m c (ix2 b k) : EReal)
      * (Cert.KernelIdeal.Value.warr m c (ix2 (Cert.Spec.row (argI m c) r) k) : EReal)) = _
  unfold Cert.Spec.out
  refine Finset.sum_congr rfl fun k _ => ?_
  -- the weights reach the call as launched (no host line before it writes them); the activations through the reshape
  congr 1
  exact Cert.KernelIdeal.Prefix.V_main_v1_apply m c b k

/-- THE RUN, READ: every weakly fair execution of the idealized kernel program terminates with its result buffer at
    the specification's result and its argument arrays unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v4) = Cert.Spec.res (argX m c) (argW m c) (argI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (Cert.KernelIdeal.Exact.run_main m ρ)
  · refine ((h c).2 main_v4 (Pipeline.mem_restRefs_of main_v4 (by decide) (by decide))).trans ?_
    rw [Cert.KernelIdeal.TailRun.W_main_v4 m (Cert.KernelIdeal.Exact.dats m) c, Cert.KernelIdeal.Value.final m c]
    exact result_eq m c (range_of_pre m hpre c)
  · exact ((h c).2 main_arg0 (Pipeline.mem_restRefs_of main_arg0 (by decide) (by decide))).trans
      (W_main_arg0 m (Cert.KernelIdeal.Exact.dats m) c)
  · exact ((h c).1 1).trans (((Cert.KernelIdeal.Exact.dats m 0 c).arrAt_in 1 rfl _).trans
      ((Cert.KernelIdeal.Exact.A_eq m c 1).trans (V_main_arg1 m c)))
  · exact ((h c).2 main_arg2 (Pipeline.mem_restRefs_of main_arg2 (by decide) (by decide))).trans
      (W_main_arg2 m (Cert.KernelIdeal.Exact.dats m) c)

end Cert.KernelIdeal.Alg

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.RefSide.lean ====
/-
  The reference program read at one entry, at the ideal instance.  Its integer stages (compare with zero, add 11008,
  select) make of each index entry the normalised row number; the row gather reads the weight row that number names,
  clamped into the matrix; the contraction is the inner product over the 4096 features.  So entry (b, s, r) of its
  result is the specification's.
-/
import proofs.«411945_j89378269430144_3_alg».proof.Proof.Gen.ReferenceIdeal.Read
import proofs.«411945_j89378269430144_3_alg».proof.Proof.LibRowOps
import proofs.«411945_j89378269430144_3_alg».proof.Proof.Spec
import proofs.«411945_j89378269430144_3_alg».proof.Proof.IndexRange
import Idealize.ShloMosaic.Lib.ValueIdx
import Idealize.ShloMosaic.PureOps.Ideal.Laws

open scoped BigOperators

namespace Cert.RefSide
open Idealize.ShloMosaic Idealize.ShloMosaic.ValueIdx Cert.ReferenceIdeal Cert.ReferenceIdeal.Gen Cert.ReferenceIdeal.Read

/-- the normalised row numbers the reference computes (its compare, add, select), at one entry, are `wrap` of the input's entry -/
theorem v4_apply (x2 : (⟨S4403, .i32⟩ : BufTy).Contents (Elt Ideal)) (r : Fin 4403) : val_main_v4 (F := Ideal) x2 (ix1 r) = Cert.IndexRange.wrap (x2 (ix1 r)) := by
  rw [val_main_v4_apply, val_main_v1_apply, val_main_v3_apply, val_main_v0_apply, val_main_v2_apply, val_main_c_apply,
    val_main_c_0_apply]
  rfl

/-- entry (r, k) of the gathered rows is the weight matrix at the row the specification selects for column r, feature k -/
theorem v6_apply (x1 : (⟨S11008x4096, .f32⟩ : BufTy).Contents (Elt Ideal)) (x2 : (⟨S4403, .i32⟩ : BufTy).Contents (Elt Ideal)) (r : Fin 4403) (k : Fin 4096) :
    val_main_v6 (F := Ideal) x1 x2 (ix2 r k) = x1 (ix2 (Cert.Spec.row x2 r) k) := by
  unfold val_main_v6
  -- the gather's dimension numbers are those of a row gather of an [11008, 4096] matrix at a [4403, 1] column
  show Host.gather (RowOps.gatherDims 11008 4403 4096 _) x1 (val_main_v5 (F := Ideal) x2) (ix2 r k) = _
  rw [RowOps.gather_apply (by decide : 0 < 11008), val_main_v5_apply]
  -- the column's entry (r, 0) is the vector's entry r
  have hi : idx_main_v5 (ix2 r 0) = ix1 r := by
    funext a; match a with | ⟨0, _⟩ => rfl
  rw [hi, v4_apply]
  -- both clamps are min (·).toInt.toNat 11007 of the normalised number
  rfl

/-- entry (b, s, r) of the reference's result is the specification's -/
theorem ref_at (x0 : (⟨S32x1x4096, .f32⟩ : BufTy).Contents (Elt Ideal)) (x1 : (⟨S11008x4096, .f32⟩ : BufTy).Contents (Elt Ideal)) (x2 : (⟨S4403, .i32⟩ : BufTy).Contents (Elt Ideal)) (b : Fin 32) (s : Fin 1) (r : Fin 4403) :
    val_main_v7 (F := Ideal) x0 x1 x2 (ix3 b s r) = Cert.Spec.out x0 x1 x2 b s r := by
  rw [val_main_v7_apply]
  unfold Cert.Spec.out
  refine Finset.sum_congr rfl fun k _ => ?_
  -- the left factor is read at (b, s, k), the right at (r, k)
  have hl : lidx_main_v7 (ix3 b s r) k = ix3 b s k := by
    funext a; match a with | ⟨0, _⟩ => rfl | ⟨1, _⟩ => rfl | ⟨2, _⟩ => rfl
  have hr : ridx_main_v7 (ix3 b s r) k = ix2 r k := by
    funext a; match a with | ⟨0, _⟩ => rfl | ⟨1, _⟩ => rfl
  rw [hl, hr, v6_apply]

end Cert.RefSide
-- ==== Proof.lean ====
/-
  The certificate: a dense projection computed on all 11008 weight rows and then gathered, against a gather of the
  selected weight rows followed by the projection.

  Both programs take activations `x : [32, 1, 4096]`, a weight matrix `w : [11008, 4096]` and 4403 row numbers.  The
  reference gathers the selected rows of `w` and contracts `x` with them over the 4096 features.  The kernel contracts `x`
  with EVERY row of `w`, 512 rows per grid point (the last block of rows overhangs the matrix and its columns past the
  array's end are never written back), and afterwards gathers the selected COLUMNS of that product, replacing a column
  whose row number is out of range by a fixed word.  Under the precondition — the float inputs finite and every row
  number in `[-11008, 11008)`, the range in which the reference's own indexing is in bounds — no column is replaced, and
  on the extended reals both results are, entry by entry, the inner product of an activation row with the selected weight
  row (`Cert.Spec.res`): a gather of rows commutes with a product taken row by row.  No law beyond that is needed: the
  sums on the two sides are the same sums, so finiteness of the float inputs is not used.

  The three frames: the reference's is its generated run; the idealized kernel's is the run in which every staging
  buffer's contents are named; the word-level kernel's is a run that names the two input buffers only, because at the
  word level a product on the matrix unit is a function of the whole block of weight rows, overhang included.
  The idealization rewrote nothing, so `preserves` has no conjunct.
-/
import proofs.«411945_j89378269430144_3_alg».proof.Defs
import proofs.«411945_j89378269430144_3_alg».proof.Proof.Gen.Kernel
import proofs.«411945_j89378269430144_3_alg».proof.Proof.Gen.KernelIdeal
import proofs.«411945_j89378269430144_3_alg».proof.Proof.Gen.ReferenceIdeal
import proofs.«411945_j89378269430144_3_alg».proof.Proof.Gen.ReferenceIdeal.Run
import proofs.«411945_j89378269430144_3_alg».proof.Proof.Gen.ReferenceIdeal.Read
import proofs.«411945_j89378269430144_3_alg».proof.Proof.Gen.Pre_finite_inputs
import proofs.«411945_j89378269430144_3_alg».proof.Proof.KFrame
import proofs.«411945_j89378269430144_3_alg».proof.Proof.KIAlg
import proofs.«411945_j89378269430144_3_alg».proof.Proof.RefSide

noncomputable section

namespace Cert.Proof

open Idealize.ShloMosaic Idealize.ShloMosaic.ValueIdx Idealize.ShloMosaic.TcCoe Idealize.SL.Sem

/-- The word-level kernel program runs and leaves its arguments unchanged. -/
theorem frame_kernel : Cert.frame_Kernel := fun m ρ _ => Cert.Kernel.FrameProof.frame (F := Bits) m ρ

/-- So does the idealized kernel program. -/
theorem frame_kernelIdeal : Cert.frame_KernelIdeal := fun m ρ _ => Cert.KernelIdeal.Exact.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the specification's result. -/
theorem algebraic : Cert.algebraic_KernelIdeal_ReferenceIdeal := by
  intro m ρ m' ρ' hpre hagree
  refine ⟨fun c => Cert.Spec.res (Cert.KernelIdeal.Alg.argX m c) (Cert.KernelIdeal.Alg.argW m c) (Cert.KernelIdeal.Alg.argI m c),
    Cert.KernelIdeal.Alg.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, (hagree c).1, (hagree c).2.1, (hagree c).2.2]
  funext i
  obtain ⟨b, s, r, rfl⟩ : ∃ (b : Fin 32) (s : Fin 1) (r : Fin 4403), i = ix3 b s r := ⟨_, _, _, eq_ix3 i⟩
  exact (Cert.RefSide.ref_at _ _ _ b s r).trans (Cert.Spec.res_ix3 _ _ _ b s r).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
